-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x337 : Shape := ⟨3, ![512, 128, 337]⟩
abbrev S300x337 : Shape := ⟨2, ![300, 337]⟩
abbrev S300 : Shape := ⟨1, ![300]⟩
abbrev S300x600 : Shape := ⟨2, ![300, 600]⟩
abbrev S1x300 : Shape := ⟨2, ![1, 300]⟩
abbrev S1 : Shape := ⟨1, ![1]⟩
abbrev S_ : Shape := ⟨0, ![]⟩

class Facts : Prop where
  bcast_S_S512x128x337 : S_.BroadcastsInDim S512x128x337 (![] : Fin 0 → Fin S512x128x337.rank)
  reducesTo_S512x128x337_S_d0_1_2 : S512x128x337.ReducesTo [0, 1, 2] S_
  h_S_ : 0 < S_.numel
  bcast_S_S300x337 : S_.BroadcastsInDim S300x337 (![] : Fin 0 → Fin S300x337.rank)
  reducesTo_S300x337_S_d0_1 : S300x337.ReducesTo [0, 1] S_
  bcast_S_S300 : S_.BroadcastsInDim S300 (![] : Fin 0 → Fin S300.rank)
  reducesTo_S300_S_d0 : S300.ReducesTo [0] S_
  bcast_S_S300x600 : S_.BroadcastsInDim S300x600 (![] : Fin 0 → Fin S300x600.rank)
  reducesTo_S300x600_S_d0_1 : S300x600.ReducesTo [0, 1] S_
  bcast_S_S1x300 : S_.BroadcastsInDim S1x300 (![] : Fin 0 → Fin S1x300.rank)
  reducesTo_S1x300_S_d0_1 : S1x300.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S300x600 .f32) (main_arg5 : FVec F S300 .f32) (main_arg6 : FVec F S1x300 .f32) (main_arg7 : FVec F S1 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x600 .f32 := Host.absf main_arg4
  let main_cst_6 : FVec F S_ .f32 := constant S_ .f32 0x7F800000#32
  let main_v20 : FVec F S300x600 .f32 := broadcastInDim S300x600 ![] bcast_S_S300x600 main_cst_6
  let main_v21 : IVec S300x600 1 := cmpf .olt main_v19 main_v20
  let main_c_7 : IVec S_ 1 := constantI S_ 1 1#1
  let main_v22 : IVec S_ 1 := (fun x v => Host.reduce IntOp.andi x v reducesTo_S300x600_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S1x300 .f32 := Host.absf main_arg6
  let main_cst_10 : FVec F S_ .f32 := constant S_ .f32 0x7F800000#32
  let main_v30 : FVec F S1x300 .f32 := broadcastInDim S1x300 ![] bcast_S_S1x300 main_cst_10
  let main_v31 : IVec S1x300 1 := cmpf .olt main_v29 main_v30
  let main_c_11 : IVec S_ 1 := constantI S_ 1 1#1
  let main_v32 : IVec S_ 1 := (fun x v => Host.reduce IntOp.andi x v reducesTo_S1x300_S_d0_1 h_S_) main_v31 main_c_11
  let main_v33 : IVec S_ 1 := andi main_v28 main_v32
  fn_part2 (F := F) main_arg7 main_v33

def fn {F : FTy → Type} [FloatOps F] (main_arg0 : FVec F S512x128x337 .f32) (main_arg1 : FVec F S512x128x337 .f32) (main_arg2 : FVec F S300x337 .f32) (main_arg3 : FVec F S300 .f32) (main_arg4 : FVec F S300x600 .f32) (main_arg5 : FVec F S300 .f32) (main_arg6 : FVec F S1x300 .f32) (main_arg7 : FVec F S1 .f32) : IVec S_ 1 :=
  let main_v0 : FVec F S512x128x337 .f32 := Host.absf main_arg0
  let main_cst : FVec F S_ .f32 := constant S_ .f32 0x7F800000#32
  let main_v1 : FVec F S512x128x337 .f32 := broadcastInDim S512x128x337 ![] bcast_S_S512x128x337 main_cst
  let main_v2 : IVec S512x128x337 1 := cmpf .olt main_v0 main_v1
  let main_c : IVec S_ 1 := constantI S_ 1 1#1
  let main_v3 : IVec S_ 1 := (fun x v => Host.reduce IntOp.andi x v reducesTo_S512x128x337_S_d0_1_2 h_S_) main_v2 main_c
  let main_v4 : FVec F S512x128x337 .f32 := Host.absf main_arg1
  let main_cst_0 : FVec F S_ .f32 := constant S_ .f32 0x7F800000#32
  let main_v5 : FVec F S512x128x337 .f32 := broadcastInDim S512x128x337 ![] bcast_S_S512x128x337 main_cst_0
  let main_v6 : IVec S512x128x337 1 := cmpf .olt main_v4 main_v5
  let main_c_1 : IVec S_ 1 := constantI S_ 1 1#1
  let main_v7 : IVec S_ 1 := (fun x v => Host.reduce IntOp.andi x v reducesTo_S512x128x337_S_d0_1_2 h_S_) main_v6 main_c_1
  let main_v8 : IVec S_ 1 := andi main_v3 main_v7
  let main_v9 : FVec F S300x337 .f32 := Host.absf main_arg2
  let main_cst_2 : FVec F S_ .f32 := constant S_ .f32 0x7F800000#32
  let main_v10 : FVec F S300x337 .f32 := broadcastInDim S300x337 ![] bcast_S_S300x337 main_cst_2
  let main_v11 : IVec S300x337 1 := cmpf .olt main_v9 main_v10
  let main_c_3 : IVec S_ 1 := constantI S_ 1 1#1
  let main_v12 : IVec S_ 1 := (fun x v => Host.reduce IntOp.andi x v reducesTo_S300x337_S_d0_1 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_arg6 main_arg7 main_v13 main_v16
-- ==== Kernel.lean ====
abbrev S512x128x337 : Shape := ⟨3, ![512, 128, 337]⟩
abbrev S300x337 : Shape := ⟨2, ![300, 337]⟩
abbrev S300 : Shape := ⟨1, ![300]⟩
abbrev S300x600 : Shape := ⟨2, ![300, 600]⟩
abbrev S1x300 : Shape := ⟨2, ![1, 300]⟩
abbrev S1 : Shape := ⟨1, ![1]⟩
abbrev S337x300 : Shape := ⟨2, ![337, 300]⟩
abbrev S300x300 : Shape := ⟨2, ![300, 300]⟩
abbrev S300x1 : Shape := ⟨2, ![300, 1]⟩
abbrev S512x1 : Shape := ⟨2, ![512, 1]⟩
abbrev S16x128x337 : Shape := ⟨3, ![16, 128, 337]⟩
abbrev S16x1 : Shape := ⟨2, ![16, 1]⟩
abbrev S2048x337 : Shape := ⟨2, ![2048, 337]⟩
abbrev S2048x300 : Shape := ⟨2, ![2048, 300]⟩
abbrev S16x128x300 : Shape := ⟨3, ![16, 128, 300]⟩
abbrev S16x300 : Shape := ⟨2, ![16, 300]⟩
abbrev S1x1 : Shape := ⟨2, ![1, 1]⟩

abbrev nBuf : Space → Nat
  | .hbm => 15
  | .vmem => 13
  | .smem => 0
  | _ => 0

abbrev bufTy : (tb : Table) → Fin (tcTables nBuf tb) → BufTy
  | .hbm, ⟨0, _⟩ => ⟨S512x128x337, .f32⟩
  | .hbm, ⟨1, _⟩ => ⟨S512x128x337, .f32⟩
  | .hbm, ⟨2, _⟩ => ⟨S300x337, .f32⟩
  | .hbm, ⟨3, _⟩ => ⟨S300, .f32⟩
  | .hbm, ⟨4, _⟩ => ⟨S300x600, .f32⟩
  | .hbm, ⟨5, _⟩ => ⟨S300, .f32⟩
  | .hbm, ⟨6, _⟩ => ⟨S1x300, .f32⟩
  | .hbm, ⟨7, _⟩ => ⟨S1, .f32⟩
  | .hbm, ⟨8, _⟩ => ⟨S337x300, .f32⟩
  | .hbm, ⟨9, _⟩ => ⟨S300x300, .f32⟩
  | .hbm, ⟨10, _⟩ => ⟨S300x300, .f32⟩
  | .hbm, ⟨11, _⟩ => ⟨S300x300, .f32⟩
  | .hbm, ⟨12, _⟩ => ⟨S300x300, .f32⟩
  | .hbm, ⟨13, _⟩ => ⟨S300x1, .f32⟩
  | .hbm, ⟨14, _⟩ => ⟨S512x1, .f32⟩
  | .local _ .vmem, ⟨0, _⟩ => ⟨S16x128x337, .f32⟩
  | .local _ .vmem, ⟨1, _⟩ => ⟨S16x128x337, .f32⟩
  | .local _ .vmem, ⟨2, _⟩ => ⟨S16x128x337, .f32⟩
  | .local _ .vmem, ⟨3, _⟩ => ⟨S16x128x337, .f32⟩
  | .local _ .vmem, ⟨4, _⟩ => ⟨S337x300, .f32⟩
  | .local _ .vmem, ⟨5, _⟩ => ⟨S300, .f32⟩
  | .local _ .vmem, ⟨6, _⟩ => ⟨S300x300, .f32⟩
  | .local _ .vmem, ⟨7, _⟩ => ⟨S300x300, .f32⟩
  | .local _ .vmem, ⟨8, _⟩ => ⟨S300, .f32⟩
  | .local _ .vmem, ⟨9, _⟩ => ⟨S300x1, .f32⟩
  | .local _ .vmem, ⟨10, _⟩ => ⟨S1, .f32⟩
  | .local _ .vmem, ⟨11, _⟩ => ⟨S16x1, .f32⟩
  | .local _ .vmem, ⟨12, _⟩ => ⟨S16x1, .f32⟩
  | _, _ => ⟨S512x128x337, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x337 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x337 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S337x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S300x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S300x337_S337x300_1_0 : S300x337.Transposes [1, 0] S337x300
  slices_S300x600_S300x300_0_0 : S300x600.Slices ![0, 0] S300x300
  transposes_S300x300_S300x300_1_0 : S300x300.Transposes [1, 0] S300x300
  slices_S300x600_S300x300_0_300 : S300x600.Slices ![0, 300] S300x300
  transposes_S1x300_S300x1_1_0 : S1x300.Transposes [1, 0] S300x1
  inb_S337x300_S337x300_0_0 : ∀ a, (![0, 0] : Fin 2 → Nat) a + S337x300.size a ≤ S337x300.size a
  h_S337x300 : 0 < S337x300.numel
  shapeCasts_S337x300_S337x300 : S337x300.ShapeCasts S337x300
  bitsLt_bf16_f32 : FTy.bits .bf16 < FTy.bits .f32
  inb_S300_S300_0 : ∀ a, (![0] : Fin 1 → Nat) a + S300.size a ≤ S300.size a
  h_S300 : 0 < S300.numel
  shapeCasts_S300_S1x300 : S300.ShapeCasts S1x300
  inb_S16x128x337_S16x128x337_0_0_0 : ∀ a, (![0, 0, 0] : Fin 3 → Nat) a + S16x128x337.size a ≤ S16x128x337.size a
  h_S16x128x337 : 0 < S16x128x337.numel
  shapeCasts_S16x128x337_S2048x337 : S16x128x337.ShapeCasts S2048x337
  broadcasts_S1x300_S2048x300 : S1x300.Broadcasts S2048x300
  shapeCasts_S2048x300_S16x128x300 : S2048x300.ShapeCasts S16x128x300
  reduces_S16x128x300_S16x300 : S16x128x300.Reduces [1] S16x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  broadcasts_S1x300_S16x300 : S1x300.Broadcasts S16x300
  inb_S300x1_S300x1_0_0 : ∀ a, (![0, 0] : Fin 2 → Nat) a + S300x1.size a ≤ S300x1.size a
  h_S300x1 : 0 < S300x1.numel
  shapeCasts_S300x1_S300x1 : S300x1.ShapeCasts S300x1
  inb_S1_S1_0 : ∀ a, (![0] : Fin 1 → Nat) a + S1.size a ≤ S1.size a
  h_S1 : 0 < S1.numel
  shapeCasts_S1_S1x1 : S1.ShapeCasts S1x1
  broadcasts_S1x1_S16x1 : S1x1.Broadcasts S16x1
  inb_S16x1_S16x1_0_0 : ∀ a, (![0, 0] : Fin 2 → Nat) a + S16x1.size a ≤ S16x1.size a
  h_S16x1 : 0 < S16x1.numel
  dot_S2048x337_S337x300_S2048x300_1_0_0_1_n_n_wf : DotDims.WF S2048x337 S337x300 S2048x300 [1] [0] [0] [1] [] []
  dot_S16x300_S300x300_S16x300_1_0_0_1_n_n_wf : DotDims.WF S16x300 S300x300 S16x300 [1] [0] [0] [1] [] []
  dot_S16x300_S300x1_S16x1_1_0_0_1_n_n_wf : DotDims.WF S16x300 S300x1 S16x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x337.size a ≤ S512x128x337.size a
  hwx0_0 : ∀ i : grid0.Coords, EltTy.bits .f32 = 32 ∨ (Rect.block (s := S512x128x337) S16x128x337.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x337.size a ≤ S512x128x337.size a
  hwx0_1 : ∀ i : grid0.Coords, EltTy.bits .f32 = 32 ∨ (Rect.block (s := S512x128x337) S16x128x337.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S337x300.size a ≤ S337x300.size a
  hwx0_2 : ∀ i : grid0.Coords, EltTy.bits .f32 = 32 ∨ (Rect.block (s := S337x300) S337x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300.size a ≤ S300.size a
  hwx0_3 : ∀ i : grid0.Coords, EltTy.bits .f32 = 32 ∨ (Rect.block (s := S300) S300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300x300.size a ≤ S300x300.size a
  hwx0_4 : ∀ i : grid0.Coords, EltTy.bits .f32 = 32 ∨ (Rect.block (s := S300x300) S300x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x300.size a ≤ S300x300.size a
  hwx0_5 : ∀ i : grid0.Coords, EltTy.bits .f32 = 32 ∨ (Rect.block (s := S300x300) S300x300.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S300.size a ≤ S300.size a
  hwx0_6 : ∀ i : grid0.Coords, EltTy.bits .f32 = 32 ∨ (Rect.block (s := S300) S300.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S300x1.size a ≤ S300x1.size a
  hwx0_7 : ∀ i : grid0.Coords, EltTy.bits .f32 = 32 ∨ (Rect.block (s := S300x1) S300x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x1.size a ≤ S512x1.size a
  hwx0_9 : ∀ i : grid0.Coords, EltTy.bits .f32 = 32 ∨ (Rect.block (s := S512x1) S16x1.size (cc0_transform_9 i) (hinb0_9 i)).WholeWords (EltTy.packing .f32)

variable [Facts₀]

def dot_S2048x337_S337x300_S2048x300_1_0_0_1_n_n : DotDims S2048x337 S337x300 S2048x300 where
  lhsContracting := [1]
  rhsContracting := [0]
  lhsNonContracting := [0]
  rhsNonContracting := [1]
  lhsBatch := []
  rhsBatch := []
  wf := dot_S2048x337_S337x300_S2048x300_1_0_0_1_n_n_wf
def dot_S16x300_S300x300_S16x300_1_0_0_1_n_n : DotDims S16x300 S300x300 S16x300 where
  lhsContracting := [1]
  rhsContracting := [0]
  lhsNonContracting := [0]
  rhsNonContracting := [1]
  lhsBatch := []
  rhsBatch := []
  wf := dot_S16x300_S300x300_S16x300_1_0_0_1_n_n_wf
def dot_S16x300_S300x1_S16x1_1_0_0_1_n_n : DotDims S16x300 S300x1 S16x1 where
  lhsContracting := [1]
  rhsContracting := [0]
  lhsNonContracting := [0]
  rhsNonContracting := [1]
  lhsBatch := []
  rhsBatch := []
  wf := dot_S16x300_S300x1_S16x1_1_0_0_1_n_n_wf

abbrev win0_0 : Pipeline.Window sig grid0 :=
  Pipeline.Window.ofSpec (Memref.whole main_arg0) S16x128x337.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128x337.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S337x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S300x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S300x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S300x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S16x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S512x128x337 : Shape := ⟨3, ![512, 128, 337]⟩
abbrev S300x337 : Shape := ⟨2, ![300, 337]⟩
abbrev S300 : Shape := ⟨1, ![300]⟩
abbrev S300x600 : Shape := ⟨2, ![300, 600]⟩
abbrev S1x300 : Shape := ⟨2, ![1, 300]⟩
abbrev S1 : Shape := ⟨1, ![1]⟩
abbrev S512x128x300 : Shape := ⟨3, ![512, 128, 300]⟩
abbrev S1x1x300 : Shape := ⟨3, ![1, 1, 300]⟩
abbrev S_ : Shape := ⟨0, ![]⟩
abbrev S512x300 : Shape := ⟨2, ![512, 300]⟩
abbrev S512x600 : Shape := ⟨2, ![512, 600]⟩
abbrev S600x300 : Shape := ⟨2, ![600, 300]⟩
abbrev S300x1 : Shape := ⟨2, ![300, 1]⟩
abbrev S512x1 : Shape := ⟨2, ![512, 1]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S512x128x337, .f32⟩
  | .hbm, ⟨1, _⟩ => ⟨S512x128x337, .f32⟩
  | .hbm, ⟨2, _⟩ => ⟨S300x337, .f32⟩
  | .hbm, ⟨3, _⟩ => ⟨S300, .f32⟩
  | .hbm, ⟨4, _⟩ => ⟨S300x600, .f32⟩
  | .hbm, ⟨5, _⟩ => ⟨S300, .f32⟩
  | .hbm, ⟨6, _⟩ => ⟨S1x300, .f32⟩
  | .hbm, ⟨7, _⟩ => ⟨S1, .f32⟩
  | .hbm, ⟨8, _⟩ => ⟨S512x128x300, .f32⟩
  | .hbm, ⟨9, _⟩ => ⟨S1x1x300, .f32⟩
  | .hbm, ⟨10, _⟩ => ⟨S512x128x300, .f32⟩
  | .hbm, ⟨11, _⟩ => ⟨S512x128x300, .f32⟩
  | .hbm, ⟨12, _⟩ => ⟨S_, .f32⟩
  | .hbm, ⟨13, _⟩ => ⟨S512x128x300, .f32⟩
  | .hbm, ⟨14, _⟩ => ⟨S512x128x300, .f32⟩
  | .hbm, ⟨15, _⟩ => ⟨S_, .f32⟩
  | .hbm, ⟨16, _⟩ => ⟨S512x300, .f32⟩
  | .hbm, ⟨17, _⟩ => ⟨S512x128x300, .f32⟩
  | .hbm, ⟨18, _⟩ => ⟨S1x1x300, .f32⟩
  | .hbm, ⟨19, _⟩ => ⟨S512x128x300, .f32⟩
  | .hbm, ⟨20, _⟩ => ⟨S512x128x300, .f32⟩
  | .hbm, ⟨21, _⟩ => ⟨S_, .f32⟩
  | .hbm, ⟨22, _⟩ => ⟨S512x128x300, .f32⟩
  | .hbm, ⟨23, _⟩ => ⟨S512x128x300, .f32⟩
  | .hbm, ⟨24, _⟩ => ⟨S_, .f32⟩
  | .hbm, ⟨25, _⟩ => ⟨S512x300, .f32⟩
  | .hbm, ⟨26, _⟩ => ⟨S512x300, .f32⟩
  | .hbm, ⟨27, _⟩ => ⟨S512x300, .f32⟩
  | .hbm, ⟨28, _⟩ => ⟨S512x600, .f32⟩
  | .hbm, ⟨29, _⟩ => ⟨S600x300, .f32⟩
  | .hbm, ⟨30, _⟩ => ⟨S512x300, .f32⟩
  | .hbm, ⟨31, _⟩ => ⟨S1x300, .f32⟩
  | .hbm, ⟨32, _⟩ => ⟨S512x300, .f32⟩
  | .hbm, ⟨33, _⟩ => ⟨S512x300, .f32⟩
  | .hbm, ⟨34, _⟩ => ⟨S512x300, .f32⟩
  | .hbm, ⟨35, _⟩ => ⟨S300x1, .f32⟩
  | .hbm, ⟨36, _⟩ => ⟨S512x1, .f32⟩
  | .hbm, ⟨37, _⟩ => ⟨S1x1, .f32⟩
  | .hbm, ⟨38, _⟩ => ⟨S512x1, .f32⟩
  | .hbm, ⟨39, _⟩ => ⟨S512x1, .f32⟩
  | _, _ => ⟨S512x128x337, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_cst : Ref sig .tc := ⟨.hbm, 21, rfl⟩
abbrev main_call1_v0 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S300_S1x1x300_2 : S300.BroadcastsInDim S1x1x300 (![2] : Fin 1 → Fin S1x1x300.rank)
  bcast_S1x1x300_S512x128x300_0_1_2 : S1x1x300.BroadcastsInDim S512x128x300 (![0, 1, 2] : Fin 3 → Fin S512x128x300.rank)
  bcast_S_S512x128x300 : S_.BroadcastsInDim S512x128x300 (![] : Fin 0 → Fin S512x128x300.rank)
  reducesTo_S512x128x300_S512x300_d1 : S512x128x300.ReducesTo [1] S512x300
  h_S_ : 0 < S_.numel
  concatenates_S512x300_S512x300_S512x600_d1 : Shape.Concatenates [S512x300, S512x300] S512x600 1
  transposes_S300x600_S600x300_1_0 : S300x600.Transposes [1, 0] S600x300
  bcast_S300_S1x300_1 : S300.BroadcastsInDim S1x300 (![1] : Fin 1 → Fin S1x300.rank)
  bcast_S1x300_S512x300_0_1 : S1x300.BroadcastsInDim S512x300 (![0, 1] : Fin 2 → Fin S512x300.rank)
  transposes_S1x300_S300x1_1_0 : S1x300.Transposes [1, 0] S300x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S512x128x337_S300x337_S512x128x300_2_1_01_0_n_n_wf : DotDims.WF S512x128x337 S300x337 S512x128x300 [2] [1] [0, 1] [0] [] []
  dot_S512x600_S600x300_S512x300_1_0_0_1_n_n_wf : DotDims.WF S512x600 S600x300 S512x300 [1] [0] [0] [1] [] []
  dot_S512x300_S300x1_S512x1_1_0_0_1_n_n_wf : DotDims.WF S512x300 S300x1 S512x1 [1] [0] [0] [1] [] []

variable [Facts₀]

def dot_S512x128x337_S300x337_S512x128x300_2_1_01_0_n_n : DotDims S512x128x337 S300x337 S512x128x300 where
  lhsContracting := [2]
  rhsContracting := [1]
  lhsNonContracting := [0, 1]
  rhsNonContracting := [0]
  lhsBatch := []
  rhsBatch := []
  wf := dot_S512x128x337_S300x337_S512x128x300_2_1_01_0_n_n_wf
def dot_S512x600_S600x300_S512x300_1_0_0_1_n_n : DotDims S512x600 S600x300 S512x300 where
  lhsContracting := [1]
  rhsContracting := [0]
  lhsNonContracting := [0]
  rhsNonContracting := [1]
  lhsBatch := []
  rhsBatch := []
  wf := dot_S512x600_S600x300_S512x300_1_0_0_1_n_n_wf
def dot_S512x300_S300x1_S512x1_1_0_0_1_n_n : DotDims S512x300 S300x1 S512x1 where
  lhsContracting := [1]
  rhsContracting := [0]
  lhsNonContracting := [0]
  rhsNonContracting := [1]
  lhsBatch := []
  rhsBatch := []
  wf := dot_S512x300_S300x1_S512x1_1_0_0_1_n_n_wf

class Facts : Prop extends Facts₀ where

variable [Facts]
-- ==== Proof.Spec.lean ====
/-
  What both programs compute, as mathematics on the extended reals.

  A sentence is 128 words of 337 features. A word answers filter `o` with the inner product of its features and the
  filter, plus the filter's bias, cut off below at zero; the sentence's pooled answer to `o` is the largest of its
  words' answers. Two sentences with pooled answers `P` and `Q` are compared through their difference `P - Q` and
  their product `P * Q`: hidden unit `j` is the hyperbolic tangent of the difference against the first 300 columns of
  row `j` of the mixing matrix, plus the product against its last 300 columns, plus a bias; the score is the hidden
  units against one more row of weights, plus one more bias.

  The only law needed between the two programs' arrangements is that a sum over 600 terms is the sum over the first
  300 plus the sum over the last 300, which holds in any commutative monoid, so at the infinities too.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- A word's answer to filter `o`: features against the filter, plus the bias, cut off below at the zero word. -/
def resp (X : Fin 128 → Fin 337 → EReal) (W : Fin 300 → Fin 337 → EReal) (B : Fin 300 → EReal) (w : Fin 128) (o : Fin 300) : EReal :=
  max ((∑ d : Fin 337, X w d * W o d) + B o) (Ideal.ofBits .f32 0x00000000#32)

/-- A sentence's pooled answer to filter `o`: the largest answer among its words, starting from the bottom word. -/
def pooled (X : Fin 128 → Fin 337 → EReal) (W : Fin 300 → Fin 337 → EReal) (B : Fin 300 → EReal) (o : Fin 300) : EReal :=
  (Finset.univ : Finset (Fin 128)).fold max (Ideal.ofBits .f32 0xFF800000#32) (fun w => resp X W B w o)

/-- Hidden unit `j` of the comparison of pooled answers `P` and `Q`: `tanh` of the difference against `A j`, plus the
    product against `A' j`, plus the bias `c j`. -/
def hidden (P Q : Fin 300 → EReal) (A A' : Fin 300 → Fin 300 → EReal) (c : Fin 300 → EReal) (j : Fin 300) : EReal :=
  Ideal.tanh (((∑ k : Fin 300, (P k - Q k) * A j k) + ∑ k : Fin 300, (P k * Q k) * A' j k) + c j)

/-- The score: hidden units against the last weights, plus the last bias. -/
def score (H U : Fin 300 → EReal) (u : EReal) : EReal := (∑ j : Fin 300, H j * U j) + u

/-- The score of one pair of sentences. -/
def rowScore (X1 X2 : Fin 128 → Fin 337 → EReal) (W : Fin 300 → Fin 337 → EReal) (B : Fin 300 → EReal)
    (A A' : Fin 300 → Fin 300 → EReal) (c U : Fin 300 → EReal) (u : EReal) : EReal :=
  score (hidden (pooled X1 W B) (pooled X2 W B) A A' c) U u

/-- The result array as one function of the eight argument arrays: entry `(b, 0)` is the score of the `b`-th pair of
    sentences; the mixing matrix's row `j` is read in its two halves of 300 columns. -/
def G (x1 x2 : (⟨3, ![512, 128, 337]⟩ : Shape).Idx → EReal) (cw : (⟨2, ![300, 337]⟩ : Shape).Idx → EReal)
    (cb : (⟨1, ![300]⟩ : Shape).Idx → EReal) (f1w : (⟨2, ![300, 600]⟩ : Shape).Idx → EReal)
    (f1b : (⟨1, ![300]⟩ : Shape).Idx → EReal) (f2w : (⟨2, ![1, 300]⟩ : Shape).Idx → EReal)
    (f2b : (⟨1, ![1]⟩ : Shape).Idx → EReal) : (⟨2, ![512, 1]⟩ : Shape).Idx → EReal := fun i =>
  rowScore (fun w d => x1 (ix3 (⟨(i 0).val, (i 0).isLt⟩ : Fin 512) w d)) (fun w d => x2 (ix3 (⟨(i 0).val, (i 0).isLt⟩ : Fin 512) w d))
    (fun o d => cw (ix2 o d)) (fun o => cb (ix1 o))
    (fun j k => f1w (ix2 j (⟨k.val, by omega⟩ : Fin 600))) (fun j k => f1w (ix2 j (⟨300 + k.val, by omega⟩ : Fin 600)))
    (fun j => f1b (ix1 j)) (fun j => f2w (ix2 (0 : Fin 1) j)) (f2b (ix1 (0 : Fin 1)))

/-- A sum over 600 terms is the sum over the first 300 plus the sum over the last 300. -/
theorem sum_split_600 {M : Type*} [AddCommMonoid M] (f : Fin 600 → M) :
    ∑ k : Fin 600, f k
      = (∑ k : Fin 300, f (⟨k.val, by omega⟩ : Fin 600)) + ∑ k : Fin 300, f (⟨300 + k.val, by omega⟩ : Fin 600) :=
  Fin.sum_univ_add (a := 300) (b := 300) f

end Cert.Spec

end
-- ==== Proof.KernelRow.lean ====
/-
  The kernel's body, read one row at a time.

  A block holds 16 pairs of sentences. The body flattens a block's 16 x 128 words into 2048 rows (row = sentence * 128 + word),
  multiplies them by the 337 x 300 filter matrix, adds the bias row, cuts off at zero, folds the 2048 rows back into
  16 x 128 and takes the largest over the 128 words; it does so for both sentences of each pair, forms difference and
  product, multiplies each by its own 300 x 300 matrix, adds the two, adds a bias row, applies tanh, multiplies by a
  300 x 1 column and adds one more bias. Read at row `r`, that is the score `Spec.rowScore` of the pair's two
  sentences, with the three matrices read the way the body holds them: filter matrix and mixing matrices transposed.
  A product into a zero accumulator is the plain sum over the contracted axis; a change of float format is the identity.
-/
import proofs.«101813_j30846455120276_1_alg».proof.Proof.Gen.KernelIdeal.Skeleton
import proofs.«101813_j30846455120276_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx

/-! ## The three products at an index: the operands' coordinates, then the sum over the contracted axis -/

theorem lhs_conv_0 (i : S2048x300.Idx) (q : dot_S2048x337_S337x300_S2048x300_1_0_0_1_n_n.contr.Idx) :
    (dot_S2048x337_S337x300_S2048x300_1_0_0_1_n_n.lhsIdx i q 0).val = (i 0).val := by
  unfold DotDims.lhsIdx
  rw [dif_neg (show ¬(0 : Fin S2048x337.rank) ∈ dot_S2048x337_S337x300_S2048x300_1_0_0_1_n_n.lhsBatch by decide), dif_pos (show (0 : Fin S2048x337.rank) ∈ dot_S2048x337_S337x300_S2048x300_1_0_0_1_n_n.lhsNonContracting by decide)]
  rfl
theorem lhs_conv_1 (i : S2048x300.Idx) (q : dot_S2048x337_S337x300_S2048x300_1_0_0_1_n_n.contr.Idx) :
    (dot_S2048x337_S337x300_S2048x300_1_0_0_1_n_n.lhsIdx i q 1).val = (q ⟨0, by decide⟩).val :=
  dot_S2048x337_S337x300_S2048x300_1_0_0_1_n_n.lhsIdx_val_of_single rfl i q
theorem rhs_conv_0 (i : S2048x300.Idx) (q : dot_S2048x337_S337x300_S2048x300_1_0_0_1_n_n.contr.Idx) :
    (dot_S2048x337_S337x300_S2048x300_1_0_0_1_n_n.rhsIdx i q 0).val = (q ⟨0, by decide⟩).val :=
  dot_S2048x337_S337x300_S2048x300_1_0_0_1_n_n.rhsIdx_val_of_single rfl i q
theorem rhs_conv_1 (i : S2048x300.Idx) (q : dot_S2048x337_S337x300_S2048x300_1_0_0_1_n_n.contr.Idx) :
    (dot_S2048x337_S337x300_S2048x300_1_0_0_1_n_n.rhsIdx i q 1).val = (i 1).val := by
  unfold DotDims.rhsIdx
  rw [dif_neg (show ¬(1 : Fin S337x300.rank) ∈ dot_S2048x337_S337x300_S2048x300_1_0_0_1_n_n.rhsBatch by decide), dif_pos (show (1 : Fin S337x300.rank) ∈ dot_S2048x337_S337x300_S2048x300_1_0_0_1_n_n.rhsNonContracting by decide)]
  rfl

/-- The 2048 x 337 by 337 x 300 product into zero, at `(a, b)`: the sum over the 337 features. -/
theorem conv_apply {φ₁ φ₂ : FTy} (l : FVec Ideal S2048x337 φ₁) (r : FVec Ideal S337x300 φ₂) (a : Fin 2048) (b : Fin 300) :
    matmul dot_S2048x337_S337x300_S2048x300_1_0_0_1_n_n none l r (constant S2048x300 .f32 0x00000000#32) (ix2 a b)
      = ∑ k : Fin 337, l (ix2 a k) * r (ix2 k b) := by
  simp only [matmul]
  rw [Ideal.matmul_constant_zero_apply, ← Equiv.sum_comp (ValueIdx.contrEquiv1 dot_S2048x337_S337x300_S2048x300_1_0_0_1_n_n 337 rfl rfl).symm]
  refine Finset.sum_congr rfl fun k _ => ?_
  have hk := ValueIdx.contrEquiv1_symm_val dot_S2048x337_S337x300_S2048x300_1_0_0_1_n_n 337 rfl rfl k
  have el : dot_S2048x337_S337x300_S2048x300_1_0_0_1_n_n.lhsIdx (ix2 a b) ((ValueIdx.contrEquiv1 dot_S2048x337_S337x300_S2048x300_1_0_0_1_n_n 337 rfl rfl).symm k) = ix2 a k := funext fun c => Fin.ext (by
    match c with
    | ⟨0, _⟩ => exact lhs_conv_0 _ _
    | ⟨1, _⟩ => exact (lhs_conv_1 _ _).trans hk)
  have er : dot_S2048x337_S337x300_S2048x300_1_0_0_1_n_n.rhsIdx (ix2 a b) ((ValueIdx.contrEquiv1 dot_S2048x337_S337x300_S2048x300_1_0_0_1_n_n 337 rfl rfl).symm k) = ix2 k b := funext fun c => Fin.ext (by
    match c with
    | ⟨0, _⟩ => exact (rhs_conv_0 _ _).trans hk
    | ⟨1, _⟩ => exact rhs_conv_1 _ _)
  rw [el, er]

theorem lhs_mix_0 (i : S16x300.Idx) (q : dot_S16x300_S300x300_S16x300_1_0_0_1_n_n.contr.Idx) :
    (dot_S16x300_S300x300_S16x300_1_0_0_1_n_n.lhsIdx i q 0).val = (i 0).val := by
  unfold DotDims.lhsIdx
  rw [dif_neg (show ¬(0 : Fin S16x300.rank) ∈ dot_S16x300_S300x300_S16x300_1_0_0_1_n_n.lhsBatch by decide), dif_pos (show (0 : Fin S16x300.rank) ∈ dot_S16x300_S300x300_S16x300_1_0_0_1_n_n.lhsNonContracting by decide)]
  rfl
theorem lhs_mix_1 (i : S16x300.Idx) (q : dot_S16x300_S300x300_S16x300_1_0_0_1_n_n.contr.Idx) :
    (dot_S16x300_S300x300_S16x300_1_0_0_1_n_n.lhsIdx i q 1).val = (q ⟨0, by decide⟩).val :=
  dot_S16x300_S300x300_S16x300_1_0_0_1_n_n.lhsIdx_val_of_single rfl i q
theorem rhs_mix_0 (i : S16x300.Idx) (q : dot_S16x300_S300x300_S16x300_1_0_0_1_n_n.contr.Idx) :
    (dot_S16x300_S300x300_S16x300_1_0_0_1_n_n.rhsIdx i q 0).val = (q ⟨0, by decide⟩).val :=
  dot_S16x300_S300x300_S16x300_1_0_0_1_n_n.rhsIdx_val_of_single rfl i q
theorem rhs_mix_1 (i : S16x300.Idx) (q : dot_S16x300_S300x300_S16x300_1_0_0_1_n_n.contr.Idx) :
    (dot_S16x300_S300x300_S16x300_1_0_0_1_n_n.rhsIdx i q 1).val = (i 1).val := by
  unfold DotDims.rhsIdx
  rw [dif_neg (show ¬(1 : Fin S300x300.rank) ∈ dot_S16x300_S300x300_S16x300_1_0_0_1_n_n.rhsBatch by decide), dif_pos (show (1 : Fin S300x300.rank) ∈ dot_S16x300_S300x300_S16x300_1_0_0_1_n_n.rhsNonContracting by decide)]
  rfl

/-- The 16 x 300 by 300 x 300 product into zero, at `(a, b)`: the sum over the 300 pooled answers. -/
theorem mix_apply {φ₁ φ₂ : FTy} (l : FVec Ideal S16x300 φ₁) (r : FVec Ideal S300x300 φ₂) (a : Fin 16) (b : Fin 300) :
    matmul dot_S16x300_S300x300_S16x300_1_0_0_1_n_n none l r (constant S16x300 .f32 0x00000000#32) (ix2 a b)
      = ∑ k : Fin 300, l (ix2 a k) * r (ix2 k b) := by
  simp only [matmul]
  rw [Ideal.matmul_constant_zero_apply, ← Equiv.sum_comp (ValueIdx.contrEquiv1 dot_S16x300_S300x300_S16x300_1_0_0_1_n_n 300 rfl rfl).symm]
  refine Finset.sum_congr rfl fun k _ => ?_
  have hk := ValueIdx.contrEquiv1_symm_val dot_S16x300_S300x300_S16x300_1_0_0_1_n_n 300 rfl rfl k
  have el : dot_S16x300_S300x300_S16x300_1_0_0_1_n_n.lhsIdx (ix2 a b) ((ValueIdx.contrEquiv1 dot_S16x300_S300x300_S16x300_1_0_0_1_n_n 300 rfl rfl).symm k) = ix2 a k := funext fun c => Fin.ext (by
    match c with
    | ⟨0, _⟩ => exact lhs_mix_0 _ _
    | ⟨1, _⟩ => exact (lhs_mix_1 _ _).trans hk)
  have er : dot_S16x300_S300x300_S16x300_1_0_0_1_n_n.rhsIdx (ix2 a b) ((ValueIdx.contrEquiv1 dot_S16x300_S300x300_S16x300_1_0_0_1_n_n 300 rfl rfl).symm k) = ix2 k b := funext fun c => Fin.ext (by
    match c with
    | ⟨0, _⟩ => exact (rhs_mix_0 _ _).trans hk
    | ⟨1, _⟩ => exact rhs_mix_1 _ _)
  rw [el, er]

theorem lhs_out_0 (i : S16x1.Idx) (q : dot_S16x300_S300x1_S16x1_1_0_0_1_n_n.contr.Idx) :
    (dot_S16x300_S300x1_S16x1_1_0_0_1_n_n.lhsIdx i q 0).val = (i 0).val := by
  unfold DotDims.lhsIdx
  rw [dif_neg (show ¬(0 : Fin S16x300.rank) ∈ dot_S16x300_S300x1_S16x1_1_0_0_1_n_n.lhsBatch by decide), dif_pos (show (0 : Fin S16x300.rank) ∈ dot_S16x300_S300x1_S16x1_1_0_0_1_n_n.lhsNonContracting by decide)]
  rfl
theorem lhs_out_1 (i : S16x1.Idx) (q : dot_S16x300_S300x1_S16x1_1_0_0_1_n_n.contr.Idx) :
    (dot_S16x300_S300x1_S16x1_1_0_0_1_n_n.lhsIdx i q 1).val = (q ⟨0, by decide⟩).val :=
  dot_S16x300_S300x1_S16x1_1_0_0_1_n_n.lhsIdx_val_of_single rfl i q
theorem rhs_out_0 (i : S16x1.Idx) (q : dot_S16x300_S300x1_S16x1_1_0_0_1_n_n.contr.Idx) :
    (dot_S16x300_S300x1_S16x1_1_0_0_1_n_n.rhsIdx i q 0).val = (q ⟨0, by decide⟩).val :=
  dot_S16x300_S300x1_S16x1_1_0_0_1_n_n.rhsIdx_val_of_single rfl i q
theorem rhs_out_1 (i : S16x1.Idx) (q : dot_S16x300_S300x1_S16x1_1_0_0_1_n_n.contr.Idx) :
    (dot_S16x300_S300x1_S16x1_1_0_0_1_n_n.rhsIdx i q 1).val = (i 1).val := by
  unfold DotDims.rhsIdx
  rw [dif_neg (show ¬(1 : Fin S300x1.rank) ∈ dot_S16x300_S300x1_S16x1_1_0_0_1_n_n.rhsBatch by decide), dif_pos (show (1 : Fin S300x1.rank) ∈ dot_S16x300_S300x1_S16x1_1_0_0_1_n_n.rhsNonContracting by decide)]
  rfl

/-- The 16 x 300 by 300 x 1 product into zero, at `(a, b)`: the sum over the 300 hidden units. -/
theorem out_apply {φ₁ φ₂ : FTy} (l : FVec Ideal S16x300 φ₁) (r : FVec Ideal S300x1 φ₂) (a : Fin 16) (b : Fin 1) :
    matmul dot_S16x300_S300x1_S16x1_1_0_0_1_n_n none l r (constant S16x1 .f32 0x00000000#32) (ix2 a b)
      = ∑ k : Fin 300, l (ix2 a k) * r (ix2 k b) := by
  simp only [matmul]
  rw [Ideal.matmul_constant_zero_apply, ← Equiv.sum_comp (ValueIdx.contrEquiv1 dot_S16x300_S300x1_S16x1_1_0_0_1_n_n 300 rfl rfl).symm]
  refine Finset.sum_congr rfl fun k _ => ?_
  have hk := ValueIdx.contrEquiv1_symm_val dot_S16x300_S300x1_S16x1_1_0_0_1_n_n 300 rfl rfl k
  have el : dot_S16x300_S300x1_S16x1_1_0_0_1_n_n.lhsIdx (ix2 a b) ((ValueIdx.contrEquiv1 dot_S16x300_S300x1_S16x1_1_0_0_1_n_n 300 rfl rfl).symm k) = ix2 a k := funext fun c => Fin.ext (by
    match c with
    | ⟨0, _⟩ => exact lhs_out_0 _ _
    | ⟨1, _⟩ => exact (lhs_out_1 _ _).trans hk)
  have er : dot_S16x300_S300x1_S16x1_1_0_0_1_n_n.rhsIdx (ix2 a b) ((ValueIdx.contrEquiv1 dot_S16x300_S300x1_S16x1_1_0_0_1_n_n 300 rfl rfl).symm k) = ix2 k b := funext fun c => Fin.ext (by
    match c with
    | ⟨0, _⟩ => exact (rhs_out_0 _ _).trans hk
    | ⟨1, _⟩ => exact rhs_out_1 _ _)
  rw [el, er]

/-! ## The body's stages, named -/

/-- The rectified answers of a block's 2048 words to the 300 filters. -/
def answers (v0 : FVec Ideal S337x300 .f32) (v3 : FVec Ideal S300 .f32) (v5 : FVec Ideal S16x128x337 .f32) : FVec Ideal S2048x300 .f32 :=
  maximumf (addf (matmul dot_S2048x337_S337x300_S2048x300_1_0_0_1_n_n none (shapeCast S2048x337 (truncf .bf16 v5 bitsLt_bf16_f32) shapeCasts_S16x128x337_S2048x337) (truncf .bf16 (shapeCast S337x300 v0 shapeCasts_S337x300_S337x300) bitsLt_bf16_f32) (constant S2048x300 .f32 0x00000000#32)) (broadcastTo S2048x300 (shapeCast S1x300 v3 shapeCasts_S300_S1x300) broadcasts_S1x300_S2048x300)) (broadcast S2048x300 (Scalar.ofBits .f32 0x00000000#32))

/-- The pooled answers of a block's 16 sentences. -/
def pooledBlk (v0 : FVec Ideal S337x300 .f32) (v3 : FVec Ideal S300 .f32) (v5 : FVec Ideal S16x128x337 .f32) : FVec Ideal S16x300 .f32 :=
  multiReduction .maximumf [1] S16x300 (shapeCast S16x128x300 (answers v0 v3 v5) shapeCasts_S2048x300_S16x128x300) 0xFF800000#32 reduces_S16x128x300_S16x300 (.inl rfl) rfl

/-- The first payload is the two mixing products of difference and product of the pooled answers, added. -/
theorem pay2_eq (v0 : FVec Ideal S337x300 .f32) (v3 : FVec Ideal S300 .f32) (v5 v15 : FVec Ideal S16x128x337 .f32) (v29 v32 : FVec Ideal S300x300 .f32) :
    k0_pay2 (F := Ideal) v0 v3 v5 v15 v29 v32
      = addf (matmul dot_S16x300_S300x300_S16x300_1_0_0_1_n_n none (truncf .bf16 (subf (pooledBlk v0 v3 v5) (pooledBlk v0 v3 v15)) bitsLt_bf16_f32) (truncf .bf16 (shapeCast S300x300 v29 shapeCasts_S300x300_S300x300) bitsLt_bf16_f32) (constant S16x300 .f32 0x00000000#32))
          (matmul dot_S16x300_S300x300_S16x300_1_0_0_1_n_n none (truncf .bf16 (mulf (pooledBlk v0 v3 v5) (pooledBlk v0 v3 v15)) bitsLt_bf16_f32) (truncf .bf16 (shapeCast S300x300 v32 shapeCasts_S300x300_S300x300) bitsLt_bf16_f32) (constant S16x300 .f32 0x00000000#32)) := rfl

/-! ## The stages at an index -/

/-- The hyperbolic tangent of a vector, read at an index. -/
theorem tanh_apply {s : Shape} {φ : FTy} (a : FVec Ideal s φ) (i : s.Idx) : tanh a i = Ideal.tanh (a i) := rfl

/-- Word `w` of sentence `r` is row `r * 128 + w` of the flattened block. -/
theorem answers_apply (v0 : FVec Ideal S337x300 .f32) (v3 : FVec Ideal S300 .f32) (v5 : FVec Ideal S16x128x337 .f32)
    (r : Fin 16) (w : Fin 128) (o : Fin 300) (row : Fin 2048) (hrow : row.val = r.val * 128 + w.val) :
    answers v0 v3 v5 (ix2 row o)
      = Spec.resp (fun w d => v5 (ix3 r w d)) (fun o d => v0 (ix2 d o)) (fun o => v3 (ix1 o)) w o := by
  unfold answers Spec.resp
  rw [maximumf_apply, addf_apply, broadcast_apply, conv_apply]
  have hl : ∀ d : Fin 337, shapeCast S2048x337 (truncf .bf16 v5 bitsLt_bf16_f32) shapeCasts_S16x128x337_S2048x337 (ix2 row d) = v5 (ix3 r w d) := fun d =>
    shapeCast_apply _ shapeCasts_S16x128x337_S2048x337 (ix2 row d) (ix3 r w d) (by
      rw [Shape.rowMajor_val_three, Shape.rowMajor_val_two]
      show (r.val * 128 + w.val) * 337 + d.val = row.val * 337 + d.val
      rw [hrow])
  have hr : ∀ d : Fin 337, truncf .bf16 (shapeCast S337x300 v0 shapeCasts_S337x300_S337x300) bitsLt_bf16_f32 (ix2 d o) = v0 (ix2 d o) := fun d => by
    rw [truncf_apply, shapeCast_self]
  have hb : broadcastTo S2048x300 (shapeCast S1x300 v3 shapeCasts_S300_S1x300) broadcasts_S1x300_S2048x300 (ix2 row o) = v3 (ix1 o) :=
    (broadcastTo_1b_ab_apply _ broadcasts_S1x300_S2048x300 row o).trans (shapeCast_a_1a_apply v3 shapeCasts_S300_S1x300 0 o)
  rw [hb, Finset.sum_congr rfl fun d _ => by rw [hl d, hr d]]
  rfl

/-- The largest over the 128 words: sentence `r`'s pooled answer to filter `o`. -/
theorem pooledBlk_apply (v0 : FVec Ideal S337x300 .f32) (v3 : FVec Ideal S300 .f32) (v5 : FVec Ideal S16x128x337 .f32)
    (r : Fin 16) (o : Fin 300) :
    pooledBlk v0 v3 v5 (ix2 r o)
      = Spec.pooled (fun w d => v5 (ix3 r w d)) (fun o d => v0 (ix2 d o)) (fun o => v3 (ix1 o)) o := by
  unfold pooledBlk Spec.pooled
  refine (Ideal.multiReduction_maximumf_single (shapeCast S16x128x300 (answers v0 v3 v5) shapeCasts_S2048x300_S16x128x300) 0xFF800000#32 reduces_S16x128x300_S16x300 (.inl rfl) rfl (ix2 r o)).trans ?_
  refine congrArg (fun f => (Finset.univ : Finset (Fin 128)).fold max (Ideal.ofBits .f32 0xFF800000#32) f) (funext fun w => ?_)
  have hw : w.val < 128 := w.isLt
  show shapeCast S16x128x300 (answers v0 v3 v5) shapeCasts_S2048x300_S16x128x300 (reduces_S16x128x300_S16x300.lift (ix2 r o) w) = _
  have hlift : reduces_S16x128x300_S16x300.lift (ix2 r o) w = ix3 r w o := funext fun c => Fin.ext (by
    match c with
    | ⟨0, _⟩ => rfl
    | ⟨1, _⟩ => rfl
    | ⟨2, _⟩ => rfl)
  rw [hlift]
  refine (shapeCast_apply _ shapeCasts_S2048x300_S16x128x300 (ix3 r w o) (ix2 (⟨r.val * 128 + w.val, by omega⟩ : Fin 2048) o) (by
    rw [Shape.rowMajor_val_three, Shape.rowMajor_val_two]
    rfl)).trans ?_
  exact answers_apply v0 v3 v5 r w o _ rfl

/-- Row `r` of the body's result: the score of the `r`-th pair of sentences of the block. -/
theorem body_row (v0 : FVec Ideal S337x300 .f32) (v3 : FVec Ideal S300 .f32) (v5 v15 : FVec Ideal S16x128x337 .f32) (v29 v32 : FVec Ideal S300x300 .f32)
    (v38 : FVec Ideal S300 .f32) (v44 : FVec Ideal S300x1 .f32) (v48 : FVec Ideal S1 .f32) (r : Fin 16) (z : Fin 1) :
    k0_pay1 (F := Ideal) (k0_pay2 (F := Ideal) v0 v3 v5 v15 v29 v32) v38 v44 v48 (ix2 r z)
      = Spec.rowScore (fun w d => v5 (ix3 r w d)) (fun w d => v15 (ix3 r w d)) (fun o d => v0 (ix2 d o)) (fun o => v3 (ix1 o))
          (fun j k => v29 (ix2 k j)) (fun j k => v32 (ix2 k j)) (fun j => v38 (ix1 j)) (fun j => v44 (ix2 j (0 : Fin 1))) (v48 (ix1 (0 : Fin 1))) := by
  have hz : z = 0 := Subsingleton.elim _ _
  subst hz
  rw [pay2_eq]
  unfold k0_pay1 Spec.rowScore Spec.score Spec.hidden
  rw [addf_apply, out_apply]
  have hbias : broadcastTo S16x1 (shapeCast S1x1 v48 shapeCasts_S1_S1x1) broadcasts_S1x1_S16x1 (ix2 r (0 : Fin 1)) = v48 (ix1 (0 : Fin 1)) :=
    (broadcastTo_1b_ab_apply _ broadcasts_S1x1_S16x1 r 0).trans (shapeCast_a_1a_apply v48 shapeCasts_S1_S1x1 0 0)
  rw [hbias]
  refine congrArg (· + v48 (ix1 (0 : Fin 1))) (Finset.sum_congr rfl fun j _ => ?_)
  have hcol : truncf .bf16 (shapeCast S300x1 v44 shapeCasts_S300x1_S300x1) bitsLt_bf16_f32 (ix2 j (0 : Fin 1)) = v44 (ix2 j (0 : Fin 1)) := by
    rw [truncf_apply, shapeCast_self]
  rw [hcol, truncf_apply]
  refine congrArg (· * v44 (ix2 j (0 : Fin 1))) ?_
  refine (tanh_apply _ _).trans (congrArg Ideal.tanh ?_)
  rw [addf_apply, addf_apply, mix_apply, mix_apply]
  have hb1 : broadcastTo S16x300 (shapeCast S1x300 v38 shapeCasts_S300_S1x300) broadcasts_S1x300_S16x300 (ix2 r j) = v38 (ix1 j) :=
    (broadcastTo_1b_ab_apply _ broadcasts_S1x300_S16x300 r j).trans (shapeCast_a_1a_apply v38 shapeCasts_S300_S1x300 0 j)
  rw [hb1]
  refine congrArg (· + v38 (ix1 j)) ?_
  refine congrArg₂ (· + ·) (Finset.sum_congr rfl fun k _ => ?_) (Finset.sum_congr rfl fun k _ => ?_)
  · rw [truncf_apply, truncf_apply, shapeCast_self, subf_apply, pooledBlk_apply, pooledBlk_apply]
  · rw [truncf_apply, truncf_apply, shapeCast_self, mulf_apply, pooledBlk_apply, pooledBlk_apply]

end Cert.KernelIdeal.Row

end
-- ==== Proof.KernelArray.lean ====
/-
  The kernel's result array.

  The grid has 32 points; point `t` handles pairs `16 t .. 16 t + 15`: its blocks of the two sentence arrays are rows
  `16 t + r`, every other operand is one whole array at every point, and it writes back rows `16 t + r` of the result.
  Three operands were made by the host before the region: the filter matrix transposed, the two halves of the mixing
  matrix cut out and transposed, the last weights transposed; read at an index they are the arguments at the swapped
  index (the second half 300 columns further on). So what point `t` writes back is block `t` of `Spec.G` of the
  arguments, the 32 blocks cover all 512 rows, and the array ends holding `Spec.G`.
-/
import proofs.«101813_j30846455120276_1_alg».proof.Proof.Gen.KernelIdeal.Value
import proofs.«101813_j30846455120276_1_alg».proof.Proof.KernelRow
import proofs.«101813_j30846455120276_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-! ## The arguments, and the result as a function of them -/

abbrev a0 (c : Dev nD) : FVec Ideal S512x128x337 .f32 := m ((c : Thread nD τ).loc main_arg0)
abbrev a1 (c : Dev nD) : FVec Ideal S512x128x337 .f32 := m ((c : Thread nD τ).loc main_arg1)
abbrev a2 (c : Dev nD) : FVec Ideal S300x337 .f32 := m ((c : Thread nD τ).loc main_arg2)
abbrev a3 (c : Dev nD) : FVec Ideal S300 .f32 := m ((c : Thread nD τ).loc main_arg3)
abbrev a4 (c : Dev nD) : FVec Ideal S300x600 .f32 := m ((c : Thread nD τ).loc main_arg4)
abbrev a5 (c : Dev nD) : FVec Ideal S300 .f32 := m ((c : Thread nD τ).loc main_arg5)
abbrev a6 (c : Dev nD) : FVec Ideal S1x300 .f32 := m ((c : Thread nD τ).loc main_arg6)
abbrev a7 (c : Dev nD) : FVec Ideal S1 .f32 := m ((c : Thread nD τ).loc main_arg7)

/-- The result array: `Spec.G` of the eight arguments as launched. -/
abbrev Gm (c : Dev nD) : FVec Ideal S512x1 .f32 :=
  Spec.G (a0 m c) (a1 m c) (a2 m c) (a3 m c) (a4 m c) (a5 m c) (a6 m c) (a7 m c)

/-! ## What the host wrote before the region -/

theorem V_v0 (c : Dev nD) : (V m c main_v0 : S337x300.Idx → EReal) = transpose S337x300 [1, 0] (a2 m c) transposes_S300x337_S337x300_1_0 := by
  dsimp only [Gen.V, Gen.hostOps0]; after_results

theorem V_v2 (c : Dev nD) : (V m c main_v2 : S300x300.Idx → EReal)
    = transpose S300x300 [1, 0] (extractStridedSlice S300x300 ![0, 0] (a4 m c) slices_S300x600_S300x300_0_0) transposes_S300x300_S300x300_1_0 := by
  dsimp only [Gen.V, Gen.hostOps0]; after_results

theorem V_v4 (c : Dev nD) : (V m c main_v4 : S300x300.Idx → EReal)
    = transpose S300x300 [1, 0] (extractStridedSlice S300x300 ![0, 300] (a4 m c) slices_S300x600_S300x300_0_300) transposes_S300x300_S300x300_1_0 := by
  dsimp only [Gen.V, Gen.hostOps0]; after_results

theorem V_v5 (c : Dev nD) : (V m c main_v5 : S300x1.Idx → EReal) = transpose S300x1 [1, 0] (a6 m c) transposes_S1x300_S300x1_1_0 := by
  dsimp only [Gen.V, Gen.hostOps0]; after_results

/-! ## The index maps over the grid -/

/-- The two sentence windows and the result window move with the grid point on their first axis; every other block
    index is zero at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-! ## The blocks at a point, read at an index -/

abbrev b0 (c : Dev nD) (t : Fin cfg0.N) : FVec Ideal S16x128x337 .f32 := iblk m c 0 t
abbrev b1 (c : Dev nD) (t : Fin cfg0.N) : FVec Ideal S16x128x337 .f32 := iblk m c 1 t
abbrev b2 (c : Dev nD) (t : Fin cfg0.N) : FVec Ideal S337x300 .f32 := iblk m c 2 t
abbrev b3 (c : Dev nD) (t : Fin cfg0.N) : FVec Ideal S300 .f32 := iblk m c 3 t
abbrev b4 (c : Dev nD) (t : Fin cfg0.N) : FVec Ideal S300x300 .f32 := iblk m c 4 t
abbrev b5 (c : Dev nD) (t : Fin cfg0.N) : FVec Ideal S300x300 .f32 := iblk m c 5 t
abbrev b6 (c : Dev nD) (t : Fin cfg0.N) : FVec Ideal S300 .f32 := iblk m c 6 t
abbrev b7 (c : Dev nD) (t : Fin cfg0.N) : FVec Ideal S300x1 .f32 := iblk m c 7 t
abbrev b8 (c : Dev nD) (t : Fin cfg0.N) : FVec Ideal S1 .f32 := iblk m c 8 t

theorem b0_apply (c : Dev nD) (t : Fin cfg0.N) (r : Fin 16) (w : Fin 128) (d : Fin 337) (row : Fin 512) (hrow : row.val = t.val * 16 + r.val) :
    b0 m c t (ix3 r w d) = a0 m c (ix3 row w d) := by
  obtain ⟨e00, e01, e02, -⟩ := idx_facts t
  show V m c main_arg0 (((cfg0.win 0).blk t).view.emb (ix3 r w d)) = _
  rw [V_main_arg0]
  refine congrArg (a0 m c) (funext fun a => Fin.ext ?_)
  match a with
  | ⟨0, _⟩ => show win0_0.index t (0 : Fin 3) * 16 + 1 * r.val = row.val; omega
  | ⟨1, _⟩ => show win0_0.index t (1 : Fin 3) * 128 + 1 * w.val = w.val; omega
  | ⟨2, _⟩ => show win0_0.index t (2 : Fin 3) * 337 + 1 * d.val = d.val; omega

theorem b1_apply (c : Dev nD) (t : Fin cfg0.N) (r : Fin 16) (w : Fin 128) (d : Fin 337) (row : Fin 512) (hrow : row.val = t.val * 16 + r.val) :
    b1 m c t (ix3 r w d) = a1 m c (ix3 row w d) := by
  obtain ⟨-, -, -, e10, e11, e12, -⟩ := idx_facts t
  show V m c main_arg1 (((cfg0.win 1).blk t).view.emb (ix3 r w d)) = _
  rw [V_main_arg1]
  refine congrArg (a1 m c) (funext fun a => Fin.ext ?_)
  match a with
  | ⟨0, _⟩ => show win0_1.index t (0 : Fin 3) * 16 + 1 * r.val = row.val; omega
  | ⟨1, _⟩ => show win0_1.index t (1 : Fin 3) * 128 + 1 * w.val = w.val; omega
  | ⟨2, _⟩ => show win0_1.index t (2 : Fin 3) * 337 + 1 * d.val = d.val; omega

theorem b2_apply (c : Dev nD) (t : Fin cfg0.N) (d : Fin 337) (o : Fin 300) :
    b2 m c t (ix2 d o) = a2 m c (ix2 o d) := by
  obtain ⟨-, -, -, -, -, -, e20, e21, -⟩ := idx_facts t
  show V m c main_v0 (((cfg0.win 2).blk t).view.emb (ix2 d o)) = _
  have hemb : ((cfg0.win 2).blk t).view.emb (ix2 d o) = ix2 d o := funext fun a => Fin.ext (by
    match a with
    | ⟨0, _⟩ => show win0_2.index t (0 : Fin 2) * 337 + 1 * d.val = d.val; omega
    | ⟨1, _⟩ => show win0_2.index t (1 : Fin 2) * 300 + 1 * o.val = o.val; omega)
  rw [hemb, V_v0]
  exact transpose_ix2_apply (a2 m c) transposes_S300x337_S337x300_1_0 d o

theorem b3_apply (c : Dev nD) (t : Fin cfg0.N) (o : Fin 300) : b3 m c t (ix1 o) = a3 m c (ix1 o) := by
  obtain ⟨-, -, -, -, -, -, -, -, e30, -⟩ := idx_facts t
  show V m c main_arg3 (((cfg0.win 3).blk t).view.emb (ix1 o)) = _
  rw [V_main_arg3]
  refine congrArg (a3 m c) (funext fun a => Fin.ext ?_)
  match a with
  | ⟨0, _⟩ => show win0_3.index t (0 : Fin 1) * 300 + 1 * o.val = o.val; omega

theorem b4_apply (c : Dev nD) (t : Fin cfg0.N) (k j : Fin 300) (k' : Fin 600) (hk : k'.val = k.val) :
    b4 m c t (ix2 k j) = a4 m c (ix2 j k') := by
  obtain ⟨-, -, -, -, -, -, -, -, -, e40, e41, -⟩ := idx_facts t
  show V m c main_v2 (((cfg0.win 4).blk t).view.emb (ix2 k j)) = _
  have hemb : ((cfg0.win 4).blk t).view.emb (ix2 k j) = ix2 k j := funext fun a => Fin.ext (by
    match a with
    | ⟨0, _⟩ => show win0_4.index t (0 : Fin 2) * 300 + 1 * k.val = k.val; omega
    | ⟨1, _⟩ => show win0_4.index t (1 : Fin 2) * 300 + 1 * j.val = j.val; omega)
  rw [hemb, V_v2]
  exact (transpose_ix2_apply _ transposes_S300x300_S300x300_1_0 k j).trans
    (slice2_axis1_apply 0 (a4 m c) slices_S300x600_S300x300_0_0 j k k' (by omega))

theorem b5_apply (c : Dev nD) (t : Fin cfg0.N) (k j : Fin 300) (k' : Fin 600) (hk : k'.val = 300 + k.val) :
    b5 m c t (ix2 k j) = a4 m c (ix2 j k') := by
  obtain ⟨-, -, -, -, -, -, -, -, -, -, -, e50, e51, -⟩ := idx_facts t
  show V m c main_v4 (((cfg0.win 5).blk t).view.emb (ix2 k j)) = _
  have hemb : ((cfg0.win 5).blk t).view.emb (ix2 k j) = ix2 k j := funext fun a => Fin.ext (by
    match a with
    | ⟨0, _⟩ => show win0_5.index t (0 : Fin 2) * 300 + 1 * k.val = k.val; omega
    | ⟨1, _⟩ => show win0_5.index t (1 : Fin 2) * 300 + 1 * j.val = j.val; omega)
  rw [hemb, V_v4]
  exact (transpose_ix2_apply _ transposes_S300x300_S300x300_1_0 k j).trans
    (slice2_axis1_apply 300 (a4 m c) slices_S300x600_S300x300_0_300 j k k' hk)

theorem b6_apply (c : Dev nD) (t : Fin cfg0.N) (j : Fin 300) : b6 m c t (ix1 j) = a5 m c (ix1 j) := by
  obtain ⟨-, -, -, -, -, -, -, -, -, -, -, -, -, e60, -⟩ := idx_facts t
  show V m c main_arg5 (((cfg0.win 6).blk t).view.emb (ix1 j)) = _
  rw [V_main_arg5]
  refine congrArg (a5 m c) (funext fun a => Fin.ext ?_)
  match a with
  | ⟨0, _⟩ => show win0_6.index t (0 : Fin 1) * 300 + 1 * j.val = j.val; omega

theorem b7_apply (c : Dev nD) (t : Fin cfg0.N) (j : Fin 300) (z : Fin 1) : b7 m c t (ix2 j z) = a6 m c (ix2 z j) := by
  obtain ⟨-, -, -, -, -, -, -, -, -, -, -, -, -, -, e70, e71, -⟩ := idx_facts t
  show V m c main_v5 (((cfg0.win 7).blk t).view.emb (ix2 j z)) = _
  have hemb : ((cfg0.win 7).blk t).view.emb (ix2 j z) = ix2 j z := funext fun a => Fin.ext (by
    match a with
    | ⟨0, _⟩ => show win0_7.index t (0 : Fin 2) * 300 + 1 * j.val = j.val; omega
    | ⟨1, _⟩ => show win0_7.index t (1 : Fin 2) * 1 + 1 * z.val = z.val; omega)
  rw [hemb, V_v5]
  exact transpose_ix2_apply (a6 m c) transposes_S1x300_S300x1_1_0 j z

theorem b8_apply (c : Dev nD) (t : Fin cfg0.N) (z : Fin 1) : b8 m c t (ix1 z) = a7 m c (ix1 z) := by
  obtain ⟨-, -, -, -, -, -, -, -, -, -, -, -, -, -, -, -, e80, -⟩ := idx_facts t
  show V m c main_arg7 (((cfg0.win 8).blk t).view.emb (ix1 z)) = _
  rw [V_main_arg7]
  refine congrArg (a7 m c) (funext fun a => Fin.ext ?_)
  match a with
  | ⟨0, _⟩ => show win0_8.index t (0 : Fin 1) * 1 + 1 * z.val = z.val; omega

/-! ## What a point writes back -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Point `t` writes back block `t` of the result function: rows `16 t + r`. -/
theorem flushed_eq (c : Dev nD) (t : Fin cfg0.N) :
    (dats m 0 c).flushed 9 t = ((cfg0.win 9).blk t).view.read (Elt Ideal) (Gm m c) := by
  obtain ⟨-, -, -, -, -, -, -, -, -, -, -, -, -, -, -, -, -, e90, e91⟩ := idx_facts t
  have ht : t.val < 32 := t.isLt
  rw [Value.flushed9]
  unfold out0_9
  rw [View.canon_unit_zero hz2]
  simp only [View.ld_unit_zero (S := S337x300) hz2, View.ld_unit_zero (S := S300) hz1, View.ld_unit_zero (S := S16x128x337) hz3,
    View.ld_unit_zero (S := S300x300) hz2, View.ld_unit_zero (S := S300x1) hz2, View.ld_unit_zero (S := S1) hz1]
  funext y
  obtain ⟨r, z, rfl⟩ : ∃ (r : Fin 16) (z : Fin 1), y = ix2 r z := ⟨y 0, y 1, eq_ix2 y⟩
  have hz : z = 0 := Subsingleton.elim _ _
  subst hz
  show k0_pay1 (F := Ideal) (k0_pay2 (F := Ideal) (b2 m c t) (b3 m c t) (b0 m c t) (b1 m c t) (b4 m c t) (b5 m c t)) (b6 m c t) (b7 m c t) (b8 m c t) (ix2 r (0 : Fin 1))
    = Gm m c (((cfg0.win 9).blk t).view.emb (ix2 r (0 : Fin 1)))
  refine (Row.body_row (b2 m c t) (b3 m c t) (b0 m c t) (b1 m c t) (b4 m c t) (b5 m c t) (b6 m c t) (b7 m c t) (b8 m c t) r 0).trans ?_
  have hemb : ((cfg0.win 9).blk t).view.emb (ix2 r (0 : Fin 1)) = ix2 (⟨t.val * 16 + r.val, by omega⟩ : Fin 512) (0 : Fin 1) := funext fun a => Fin.ext (by
    match a with
    | ⟨0, _⟩ => show win0_9.index t (0 : Fin 2) * 16 + 1 * r.val = t.val * 16 + r.val; omega
    | ⟨1, _⟩ => show win0_9.index t (1 : Fin 2) * 1 + 1 * 0 = 0; omega)
  rw [hemb]
  have h0 : (fun (w : Fin 128) (d : Fin 337) => b0 m c t (ix3 r w d)) = fun w d => a0 m c (ix3 (⟨t.val * 16 + r.val, by omega⟩ : Fin 512) w d) :=
    funext fun w => funext fun d => b0_apply m c t r w d _ rfl
  have h1 : (fun (w : Fin 128) (d : Fin 337) => b1 m c t (ix3 r w d)) = fun w d => a1 m c (ix3 (⟨t.val * 16 + r.val, by omega⟩ : Fin 512) w d) :=
    funext fun w => funext fun d => b1_apply m c t r w d _ rfl
  have h2 : (fun (o : Fin 300) (d : Fin 337) => b2 m c t (ix2 d o)) = fun o d => a2 m c (ix2 o d) :=
    funext fun o => funext fun d => b2_apply m c t d o
  have h3 : (fun (o : Fin 300) => b3 m c t (ix1 o)) = fun o => a3 m c (ix1 o) := funext fun o => b3_apply m c t o
  have h4 : (fun (j k : Fin 300) => b4 m c t (ix2 k j)) = fun j k => a4 m c (ix2 j (⟨k.val, by omega⟩ : Fin 600)) :=
    funext fun j => funext fun k => b4_apply m c t k j _ rfl
  have h5 : (fun (j k : Fin 300) => b5 m c t (ix2 k j)) = fun j k => a4 m c (ix2 j (⟨300 + k.val, by omega⟩ : Fin 600)) :=
    funext fun j => funext fun k => b5_apply m c t k j _ rfl
  have h6 : (fun (j : Fin 300) => b6 m c t (ix1 j)) = fun j => a5 m c (ix1 j) := funext fun j => b6_apply m c t j
  have h7 : (fun (j : Fin 300) => b7 m c t (ix2 j (0 : Fin 1))) = fun j => a6 m c (ix2 (0 : Fin 1) j) := funext fun j => b7_apply m c t j 0
  rw [h0, h1, h2, h3, h4, h5, h6, h7, b8_apply m c t 0]
  rfl

/-! ## The cover, the array, the run -/

theorem mem_blk (t : Fin cfg0.N) (i : S512x1.Idx) :
    i ∈ ((cfg0.win 9).blk t).view.set ↔ ∀ a : Fin 2, win0_9.index t a * S16x1.size a ≤ (i a).val ∧ (i a).val < win0_9.index t a * S16x1.size a + S16x1.size a := by
  show i ∈ ((View.whole main_v6).slice (win0_9.rect t)).set ↔ _
  rw [View.set_slice_whole, Rect.mem_set_unit]
  exact Iff.rfl

/-- Row `i` lies in the block of point `i / 16`. -/
theorem cover (i : S512x1.Idx) : ∃ t : Fin cfg0.N, (cfg0.win 9).flush t = true ∧ i ∈ ((cfg0.win 9).blk t).view.set := by
  have hi0 : (i 0).val < 512 := (i 0).isLt
  have hi1 : (i 1).val < 1 := (i 1).isLt
  have hq : (i 0).val / 16 < 32 := by omega
  obtain ⟨-, -, -, -, -, -, -, -, -, -, -, -, -, -, -, -, -, e90, e91⟩ := idx_facts (⟨(i 0).val / 16, hq⟩ : Fin cfg0.N)
  have e90' : win0_9.index (⟨(i 0).val / 16, hq⟩ : Fin cfg0.N) (0 : Fin 2) = (i 0).val / 16 := e90
  refine ⟨⟨(i 0).val / 16, hq⟩, flush0_9 _, ?_⟩
  rw [mem_blk]
  intro a
  match a with
  | ⟨0, _⟩ =>
    show win0_9.index (⟨(i 0).val / 16, hq⟩ : Fin cfg0.N) (0 : Fin 2) * 16 ≤ (i 0).val ∧ (i 0).val < win0_9.index (⟨(i 0).val / 16, hq⟩ : Fin cfg0.N) (0 : Fin 2) * 16 + 16
    omega
  | ⟨1, _⟩ =>
    show win0_9.index (⟨(i 0).val / 16, hq⟩ : Fin cfg0.N) (1 : Fin 2) * 1 ≤ (i 1).val ∧ (i 1).val < win0_9.index (⟨(i 0).val / 16, hq⟩ : Fin cfg0.N) (1 : Fin 2) * 1 + 1
    omega

/-- After the run the result array holds `Spec.G` of the arguments. -/
theorem final (c : Dev nD) : (dats m 0 c).arrAt 9 cfg0.N = Gm m c :=
  (dats m 0 c).arrAt_eq_of_cover 9 (Gm m c) (fun t _ => flushed_eq m c t) cover

/-- The kernel's run: every weakly fair execution ends with the result array at `Spec.G` of the arguments and the
    arguments as launched. -/
theorem run : θ_run defs (onTc (τ := τ) (main (F := Ideal))) ⟨m, fun _ => 0, ρ⟩ fun r => ∀ c : Dev nD,
      r.2.mem ((c : Thread nD τ).loc main_v6) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefRow.lean ====
/-
  The reference, read one row at a time.

  The reference computes the same score stage by stage on whole arrays: the answers of all 512 x 128 words by one
  contraction over the features, the bias, the cut-off at zero, the largest over each sentence's words, difference and
  product laid side by side into 600 columns, one contraction of those 600 columns with the mixing matrix, a bias, tanh,
  one last contraction and bias. Read at pair `b` each stage is the matching piece of `Spec.rowScore`; the 600-term
  contraction is the sum over the difference's 300 columns plus the sum over the product's 300 columns.
-/
import proofs.«101813_j30846455120276_1_alg».proof.Proof.RefRead
import proofs.«101813_j30846455120276_1_alg».proof.Proof.Spec
import Idealize.ShloMosaic.Lib.Pipeline.Value
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.ReadCopy Idealize.ShloMosaic Idealize.ShloMosaic.ValueIdx

/-- Dropping the word axis of a 512 x 128 x 300 array leaves 512 x 300. -/
theorem red : S512x128x300.Reduces [1] S512x300 := by decide

theorem red_lift (b : Fin 512) (o : Fin 300) (w : Fin (S512x128x300.size 1)) : red.lift (ix2 b o) w = ix3 b w o :=
  funext fun c => Fin.ext (by
    match c with
    | ⟨0, _⟩ => rfl
    | ⟨1, _⟩ => rfl
    | ⟨2, _⟩ => rfl)

/-- The host's maximum over the word axis, read at pair `b` and filter `o`: the fold of `max` over the 128 words from
    the initial value's one element. -/
theorem hostMax_apply (x : S512x128x300.Idx → Ideal .f32) (init : S_.Idx → Ideal .f32) (b : Fin 512) (o : Fin 300) :
    Host.reduce (FloatOps.maximumf (F := Ideal) (φ := .f32)) x init reducesTo_S512x128x300_S512x300_d1 h_S_ (ix2 b o)
      = (Finset.univ : Finset (Fin 128)).fold max (init (Shape.Idx.first h_S_)) (fun w => x (ix3 b w o)) := by
  refine (Host.reduce_eq_fold_single (α := Ideal .f32) (s := S512x128x300) (t := S512x300) (a := (1 : Fin S512x128x300.rank)) (u := S_)
    (FloatOps.maximumf (F := Ideal) (φ := .f32)) x init reducesTo_S512x128x300_S512x300_d1 red h_S_ (ix2 b o)).trans ?_
  refine congrArg (fun f => (Finset.univ : Finset (Fin 128)).fold max (init (Shape.Idx.first h_S_)) f) (funext fun w => ?_)
  exact congrArg x (red_lift b o w)

/-- A word's rectified answer in the first sentence's stage. -/
theorem answer1 (x0 : FVec Ideal S512x128x337 .f32) (x2 : FVec Ideal S300x337 .f32) (x3 : FVec Ideal S300 .f32)
    (b : Fin 512) (w : Fin 128) (o : Fin 300) :
    val_main_v4 (F := Ideal) x0 x2 x3 (ix3 b w o)
      = Spec.resp (fun w d => x0 (ix3 b w d)) (fun o d => x2 (ix2 o d)) (fun o => x3 (ix1 o)) w o := by
  rw [val_main_v4_apply, val_main_v3_apply, val_main_v0_apply, val_main_v2_apply, val_main_v1_apply,
    val_main_call0_v0_apply, val_main_call0_cst_apply]
  have e1 : ∀ k : Fin 337, lidx_main_v0 (ix3 b w o) k = ix3 b w k := fun k => funext fun a => Fin.ext (by
    match a with
    | ⟨0, _⟩ => rfl
    | ⟨1, _⟩ => rfl
    | ⟨2, _⟩ => rfl)
  have e2 : ∀ k : Fin 337, ridx_main_v0 (ix3 b w o) k = ix2 o k := fun k => funext fun a => Fin.ext (by
    match a with
    | ⟨0, _⟩ => rfl
    | ⟨1, _⟩ => rfl)
  have e3 : idx_main_v1 (idx_main_v2 (ix3 b w o)) = ix1 o := funext fun a => Fin.ext (by
    match a with
    | ⟨0, _⟩ => rfl)
  rw [e3, Finset.sum_congr rfl fun k _ => by rw [e1 k, e2 k]]
  rfl

/-- The same in the second sentence's stage. -/
theorem answer2 (x1 : FVec Ideal S512x128x337 .f32) (x2 : FVec Ideal S300x337 .f32) (x3 : FVec Ideal S300 .f32)
    (b : Fin 512) (w : Fin 128) (o : Fin 300) :
    val_main_v10 (F := Ideal) x1 x2 x3 (ix3 b w o)
      = Spec.resp (fun w d => x1 (ix3 b w d)) (fun o d => x2 (ix2 o d)) (fun o => x3 (ix1 o)) w o := by
  rw [val_main_v10_apply, val_main_v9_apply, val_main_v6_apply, val_main_v8_apply, val_main_v7_apply,
    val_main_call1_v0_apply, val_main_call1_cst_apply]
  have e1 : ∀ k : Fin 337, lidx_main_v6 (ix3 b w o) k = ix3 b w k := fun k => funext fun a => Fin.ext (by
    match a with
    | ⟨0, _⟩ => rfl
    | ⟨1, _⟩ => rfl
    | ⟨2, _⟩ => rfl)
  have e2 : ∀ k : Fin 337, ridx_main_v6 (ix3 b w o) k = ix2 o k := fun k => funext fun a => Fin.ext (by
    match a with
    | ⟨0, _⟩ => rfl
    | ⟨1, _⟩ => rfl)
  have e3 : idx_main_v7 (idx_main_v8 (ix3 b w o)) = ix1 o := funext fun a => Fin.ext (by
    match a with
    | ⟨0, _⟩ => rfl)
  rw [e3, Finset.sum_congr rfl fun k _ => by rw [e1 k, e2 k]]
  rfl

/-- The largest over the words: the first sentence's pooled answer. -/
theorem pooled1 (x0 : FVec Ideal S512x128x337 .f32) (x2 : FVec Ideal S300x337 .f32) (x3 : FVec Ideal S300 .f32)
    (b : Fin 512) (o : Fin 300) :
    val_main_v5 (F := Ideal) x0 x2 x3 (ix2 b o)
      = Spec.pooled (fun w d => x0 (ix3 b w d)) (fun o d => x2 (ix2 o d)) (fun o => x3 (ix1 o)) o := by
  unfold val_main_v5 Spec.pooled
  refine (hostMax_apply (val_main_v4 (F := Ideal) x0 x2 x3) (val_main_cst (F := Ideal)) b o).trans ?_
  exact congrArg (fun f => (Finset.univ : Finset (Fin 128)).fold max (Ideal.ofBits .f32 0xFF800000#32) f)
    (funext fun w => answer1 x0 x2 x3 b w o)

/-- The second sentence's pooled answer. -/
theorem pooled2 (x1 : FVec Ideal S512x128x337 .f32) (x2 : FVec Ideal S300x337 .f32) (x3 : FVec Ideal S300 .f32)
    (b : Fin 512) (o : Fin 300) :
    val_main_v11 (F := Ideal) x1 x2 x3 (ix2 b o)
      = Spec.pooled (fun w d => x1 (ix3 b w d)) (fun o d => x2 (ix2 o d)) (fun o => x3 (ix1 o)) o := by
  unfold val_main_v11 Spec.pooled
  refine (hostMax_apply (val_main_v10 (F := Ideal) x1 x2 x3) (val_main_cst_0 (F := Ideal)) b o).trans ?_
  exact congrArg (fun f => (Finset.univ : Finset (Fin 128)).fold max (Ideal.ofBits .f32 0xFF800000#32) f)
    (funext fun w => answer2 x1 x2 x3 b w o)

/-- The first 300 of the 600 columns hold the difference of the pooled answers. -/
theorem feat_left (x0 x1 : FVec Ideal S512x128x337 .f32) (x2 : FVec Ideal S300x337 .f32) (x3 : FVec Ideal S300 .f32)
    (b : Fin 512) (k : Fin 300) (k' : Fin 600) (hk : k'.val = k.val) :
    val_main_v14 (F := Ideal) x0 x1 x2 x3 (ix2 b k') = val_main_v12 (F := Ideal) x0 x1 x2 x3 (ix2 b k) := by
  unfold val_main_v14
  exact concatenate_pair_apply_left (1 : Fin S512x600.rank) _ _ concatenates_S512x300_S512x300_S512x600_d1 (ix2 b k') rfl (ix2 b k)
    (fun c => by
      match c with
      | ⟨0, _⟩ => rfl
      | ⟨1, _⟩ => exact hk.symm)

/-- The last 300 hold their product. -/
theorem feat_right (x0 x1 : FVec Ideal S512x128x337 .f32) (x2 : FVec Ideal S300x337 .f32) (x3 : FVec Ideal S300 .f32)
    (b : Fin 512) (k : Fin 300) (k' : Fin 600) (hk : k'.val = 300 + k.val) :
    val_main_v14 (F := Ideal) x0 x1 x2 x3 (ix2 b k') = val_main_v13 (F := Ideal) x0 x1 x2 x3 (ix2 b k) := by
  unfold val_main_v14
  exact concatenate_pair_apply_right (1 : Fin S512x600.rank) _ _ concatenates_S512x300_S512x300_S512x600_d1 (ix2 b k') rfl rfl (ix2 b k)
    (fun c hc => by
      match c with
      | ⟨0, _⟩ => rfl
      | ⟨1, _⟩ => exact absurd rfl hc)
    (by show k.val + 300 = k'.val; omega)

/-- A hidden unit of pair `b`. -/
theorem hidden_row (x0 x1 : FVec Ideal S512x128x337 .f32) (x2 : FVec Ideal S300x337 .f32) (x3 : FVec Ideal S300 .f32)
    (x4 : FVec Ideal S300x600 .f32) (x5 : FVec Ideal S300 .f32) (b : Fin 512) (j : Fin 300) :
    val_main_v20 (F := Ideal) x0 x1 x2 x3 x4 x5 (ix2 b j)
      = Spec.hidden (Spec.pooled (fun w d => x0 (ix3 b w d)) (fun o d => x2 (ix2 o d)) (fun o => x3 (ix1 o)))
          (Spec.pooled (fun w d => x1 (ix3 b w d)) (fun o d => x2 (ix2 o d)) (fun o => x3 (ix1 o)))
          (fun j k => x4 (ix2 j (⟨k.val, by omega⟩ : Fin 600))) (fun j k => x4 (ix2 j (⟨300 + k.val, by omega⟩ : Fin 600)))
          (fun j => x5 (ix1 j)) j := by
  rw [val_main_v20_apply, val_main_v19_apply, val_main_v16_apply, val_main_v18_apply, val_main_v17_apply]
  unfold Spec.hidden
  have e3 : idx_main_v17 (idx_main_v18 (ix2 b j)) = ix1 j := funext fun a => Fin.ext (by
    match a with
    | ⟨0, _⟩ => rfl)
  have el : ∀ k : Fin 600, lidx_main_v16 (ix2 b j) k = ix2 b k := fun k => funext fun a => Fin.ext (by
    match a with
    | ⟨0, _⟩ => rfl
    | ⟨1, _⟩ => rfl)
  have er : ∀ k : Fin 600, val_main_v15 (F := Ideal) x4 (ridx_main_v16 (ix2 b j) k) = x4 (ix2 j k) := fun k => by
    rw [val_main_v15_apply]
    exact congrArg x4 (funext fun a => Fin.ext (by
      match a with
      | ⟨0, _⟩ => rfl
      | ⟨1, _⟩ => rfl))
  rw [e3, Finset.sum_congr rfl fun k _ => by rw [el k, er k], Spec.sum_split_600]
  rw [Ideal.hostUnary_tanh_def, Ideal.addf_def]
  refine congrArg Ideal.tanh (congrArg (· + x5 (ix1 j)) (congrArg₂ (· + ·) (Finset.sum_congr rfl fun k _ => ?_) (Finset.sum_congr rfl fun k _ => ?_)))
  · beta_reduce
    rw [feat_left x0 x1 x2 x3 b k _ rfl, val_main_v12_apply, pooled1, pooled2]; rfl
  · beta_reduce
    rw [feat_right x0 x1 x2 x3 b k _ rfl, val_main_v13_apply, pooled1, pooled2]; rfl

/-- The score of pair `b`. -/
theorem score_row (x0 x1 : FVec Ideal S512x128x337 .f32) (x2 : FVec Ideal S300x337 .f32) (x3 : FVec Ideal S300 .f32)
    (x4 : FVec Ideal S300x600 .f32) (x5 : FVec Ideal S300 .f32) (x6 : FVec Ideal S1x300 .f32) (x7 : FVec Ideal S1 .f32)
    (b : Fin 512) (z : Fin 1) :
    val_main_v25 (F := Ideal) x0 x1 x2 x3 x4 x5 x6 x7 (ix2 b z)
      = Spec.rowScore (fun w d => x0 (ix3 b w d)) (fun w d => x1 (ix3 b w d)) (fun o d => x2 (ix2 o d)) (fun o => x3 (ix1 o))
          (fun j k => x4 (ix2 j (⟨k.val, by omega⟩ : Fin 600))) (fun j k => x4 (ix2 j (⟨300 + k.val, by omega⟩ : Fin 600)))
          (fun j => x5 (ix1 j)) (fun j => x6 (ix2 (0 : Fin 1) j)) (x7 (ix1 (0 : Fin 1))) := by
  have hz : z = 0 := Subsingleton.elim _ _
  subst hz
  rw [val_main_v25_apply, val_main_v22_apply, val_main_v24_apply, val_main_v23_apply]
  unfold Spec.rowScore Spec.score
  have e3 : idx_main_v23 (idx_main_v24 (ix2 b (0 : Fin 1))) = ix1 (0 : Fin 1) := funext fun a => Fin.ext (by
    match a with
    | ⟨0, _⟩ => rfl)
  have el : ∀ k : Fin 300, lidx_main_v22 (ix2 b (0 : Fin 1)) k = ix2 b k := fun k => funext fun a => Fin.ext (by
    match a with
    | ⟨0, _⟩ => rfl
    | ⟨1, _⟩ => rfl)
  have er : ∀ k : Fin 300, val_main_v21 (F := Ideal) x6 (ridx_main_v22 (ix2 b (0 : Fin 1)) k) = x6 (ix2 (0 : Fin 1) k) := fun k => by
    rw [val_main_v21_apply]
    exact congrArg x6 (funext fun a => Fin.ext (by
      match a with
      | ⟨0, _⟩ => rfl
      | ⟨1, _⟩ => rfl))
  rw [e3, Finset.sum_congr rfl fun k _ => by rw [el k, er k, hidden_row]]
  rfl

/-- The reference's result array is `Spec.G` of its arguments. -/
theorem result_eq_G (x0 x1 : FVec Ideal S512x128x337 .f32) (x2 : FVec Ideal S300x337 .f32) (x3 : FVec Ideal S300 .f32)
    (x4 : FVec Ideal S300x600 .f32) (x5 : FVec Ideal S300 .f32) (x6 : FVec Ideal S1x300 .f32) (x7 : FVec Ideal S1 .f32) :
    val_main_v25 (F := Ideal) x0 x1 x2 x3 x4 x5 x6 x7 = Spec.G x0 x1 x2 x3 x4 x5 x6 x7 := by
  funext i
  obtain ⟨b, z, rfl⟩ : ∃ (b : Fin 512) (z : Fin 1), i = ix2 b z := ⟨i 0, i 1, eq_ix2 i⟩
  exact score_row x0 x1 x2 x3 x4 x5 x6 x7 b z

end Cert.ReferenceIdeal.Row

end
-- ==== Proof.lean ====
/-
  A sentence-pair scorer, computed two ways, gives the same scores on the extended reals.

  Both programs take two batches of 512 sentences (128 words of 337 features each), a bank of 300 filters with biases,
  a 300 x 600 mixing matrix with biases, and a last row of 300 weights with one bias. Each word answers each filter with
  an inner product plus bias, cut off below at zero; a sentence's pooled answer is the largest over its words; the two
  sentences of a pair are compared through difference and product of their pooled answers, mixed by the matrix's two
  halves, biased, squashed by tanh, and scored by the last weights and bias (`Spec.G`).

  The kernel does this 16 pairs at a time over a grid of 32 points, with the filter bank, the two halves of the mixing
  matrix and the last weights transposed beforehand, difference and product each multiplied by its own half, and every
  product taken into a zero accumulator (`KernelRow`, `KernelArray`). The reference does it on whole arrays, laying
  difference and product side by side and contracting all 600 columns at once (`RefRow`). The two arrangements differ
  by reading matrices at swapped indices and by splitting a sum of 600 terms into two sums of 300, which is sound at
  the infinities too, so no finiteness of the inputs is used. Changes of float format are the identity on the
  extended reals, and nothing was rewritten between the kernel and its idealization.
-/
import proofs.«101813_j30846455120276_1_alg».proof.Defs
import proofs.«101813_j30846455120276_1_alg».proof.Proof.Gen.Kernel
import proofs.«101813_j30846455120276_1_alg».proof.Proof.Gen.Kernel.Skeleton
import proofs.«101813_j30846455120276_1_alg».proof.Proof.Gen.Kernel.Launch
import proofs.«101813_j30846455120276_1_alg».proof.Proof.Gen.Kernel.Points
import proofs.«101813_j30846455120276_1_alg».proof.Proof.Gen.Kernel.Frame
import proofs.«101813_j30846455120276_1_alg».proof.Proof.Gen.KernelIdeal
import proofs.«101813_j30846455120276_1_alg».proof.Proof.Gen.KernelIdeal.Skeleton
import proofs.«101813_j30846455120276_1_alg».proof.Proof.Gen.KernelIdeal.Launch
import proofs.«101813_j30846455120276_1_alg».proof.Proof.Gen.KernelIdeal.Points
import proofs.«101813_j30846455120276_1_alg».proof.Proof.Gen.KernelIdeal.Frame
import proofs.«101813_j30846455120276_1_alg».proof.Proof.Gen.ReferenceIdeal
import proofs.«101813_j30846455120276_1_alg».proof.Proof.Gen.KernelIdeal.Value
import proofs.«101813_j30846455120276_1_alg».proof.Proof.Gen.Pre_finite_inputs
import proofs.«101813_j30846455120276_1_alg».proof.Proof.RefRun
import proofs.«101813_j30846455120276_1_alg».proof.Proof.RefRead
import proofs.«101813_j30846455120276_1_alg».proof.Proof.Spec
import proofs.«101813_j30846455120276_1_alg».proof.Proof.KernelRow
import proofs.«101813_j30846455120276_1_alg».proof.Proof.KernelArray
import proofs.«101813_j30846455120276_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.RunCopy.run (F := Ideal) m ρ)

/-- Nothing was rewritten between the kernel and its reading on the extended reals. -/
theorem preserves : Cert.preserves_Kernel_KernelIdeal := trivial

/-- From memories that agree on the arguments both programs end with the result array at `Spec.G` of the arguments. -/
theorem algebraic : Cert.algebraic_KernelIdeal_ReferenceIdeal := by
  intro m ρ m' ρ' _ hagree
  refine ⟨fun c => Cert.KernelIdeal.Whole.Gm m c, Cert.KernelIdeal.Whole.run m ρ, ?_⟩
  refine (θ_run Cert.ReferenceIdeal.defs _ _).mono (fun _ h c => ⟨(h c).1.trans ?_, (h c).2⟩)
    (Cert.ReferenceIdeal.RunCopy.run (F := Ideal) m' ρ')
  obtain ⟨g0, g1, g2, g3, g4, g5, g6, g7⟩ := hagree c
  rw [g0, g1, g2, g3, g4, g5, g6, g7]
  exact (Cert.ReferenceIdeal.ReadCopy.val_main_v25_eq _ _ _ _ _ _ _ _).trans (Cert.ReferenceIdeal.Row.result_eq_G _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
